-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1500000x32 : Shape := ⟨2, ![1500000, 32]⟩
abbrev S1500000x2 : Shape := ⟨2, ![1500000, 2]⟩
abbrev S_ : Shape := ⟨0, ![]⟩

class Facts : Prop where
  bcast_S_S1500000x32 : S_.BroadcastsInDim S1500000x32 (![] : Fin 0 → Fin S1500000x32.rank)
  reducesTo_S1500000x32_S_d0_1 : S1500000x32.ReducesTo [0, 1] S_
  h_S_ : 0 < S_.numel

variable [Facts]

def fn {F : FTy → Type} [FloatOps F] (main_arg0 : FVec F S1500000x32 .f32) (main_arg1 : IVec S1500000x2 32) : IVec S_ 1 :=
  let main_v0 : FVec F S1500000x32 .f32 := Host.absf main_arg0
  let main_cst : FVec F S_ .f32 := constant S_ .f32 0x7F800000#32
  let main_v1 : FVec F S1500000x32 .f32 := broadcastInDim S1500000x32 ![] bcast_S_S1500000x32 main_cst
  let main_v2 : IVec S1500000x32 1 := cmpf .olt main_v0 main_v1
  let main_c : IVec S_ 1 := constantI S_ 1 1#1
  let main_v3 : IVec S_ 1 := (fun x v => Host.reduce IntOp.andi x v reducesTo_S1500000x32_S_d0_1 h_S_) main_v2 main_c
  main_v3
-- ==== Kernel.lean ====
abbrev S1500000x32 : Shape := ⟨2, ![1500000, 32]⟩
abbrev S1500000x2 : Shape := ⟨2, ![1500000, 2]⟩
abbrev S_ : Shape := ⟨0, ![]⟩
abbrev S1507328x32 : Shape := ⟨2, ![1507328, 32]⟩
abbrev S1507328x2 : Shape := ⟨2, ![1507328, 2]⟩
abbrev S1x1 : Shape := ⟨2, ![1, 1]⟩
abbrev S16384x32 : Shape := ⟨2, ![16384, 32]⟩
abbrev S16384x2 : Shape := ⟨2, ![16384, 2]⟩
abbrev S16384x1 : Shape := ⟨2, ![16384, 1]⟩
abbrev S16384 : Shape := ⟨1, ![16384]⟩
abbrev S1x16384 : Shape := ⟨2, ![1, 16384]⟩
abbrev S1 : Shape := ⟨1, ![1]⟩

abbrev nBuf : Space → Nat
  | .hbm => 12
  | .vmem => 5
  | .smem => 0
  | _ => 0

abbrev bufTy : (tb : Table) → Fin (tcTables nBuf tb) → BufTy
  | .hbm, ⟨0, _⟩ => ⟨S1500000x32, .f32⟩
  | .hbm, ⟨1, _⟩ => ⟨S1500000x2, .i32⟩
  | .hbm, ⟨2, _⟩ => ⟨S_, .i32⟩
  | .hbm, ⟨3, _⟩ => ⟨S_, .f32⟩
  | .hbm, ⟨4, _⟩ => ⟨S1507328x32, .f32⟩
  | .hbm, ⟨5, _⟩ => ⟨S_, .i32⟩
  | .hbm, ⟨6, _⟩ => ⟨S_, .i32⟩
  | .hbm, ⟨7, _⟩ => ⟨S1507328x2, .i32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S16384x32, .f32⟩
  | .local _ .vmem, ⟨1, _⟩ => ⟨S16384x32, .f32⟩
  | .local _ .vmem, ⟨2, _⟩ => ⟨S16384x2, .i32⟩
  | .local _ .vmem, ⟨3, _⟩ => ⟨S16384x2, .i32⟩
  | .local _ .vmem, ⟨4, _⟩ => ⟨S1x1, .f32⟩
  | _, _ => ⟨S1500000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![92], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  pads_S1500000x32_S1507328x32_073280_000 : S1500000x32.Pads (![0, 0] : Fin 2 → Nat) ![7328, 0] ![0, 0] S1507328x32
  h_S_ : 0 < S_.numel
  pads_S1500000x2_S1507328x2_073280_000 : S1500000x2.Pads (![0, 0] : Fin 2 → Nat) ![7328, 0] ![0, 0] S1507328x2
  inb_S1x1_S1x1_0_0 : ∀ a, (![0, 0] : Fin 2 → Nat) a + S1x1.size a ≤ S1x1.size a
  h_S1x1 : 0 < S1x1.numel
  inb_S16384x32_S16384x32_0_0 : ∀ a, (![0, 0] : Fin 2 → Nat) a + S16384x32.size a ≤ S16384x32.size a
  h_S16384x32 : 0 < S16384x32.numel
  shapeCasts_S16384x32_S16384x32 : S16384x32.ShapeCasts S16384x32
  inb_S16384x2_S16384x2_0_0 : ∀ a, (![0, 0] : Fin 2 → Nat) a + S16384x2.size a ≤ S16384x2.size a
  h_S16384x2 : 0 < S16384x2.numel
  shapeCasts_S16384x2_S16384x2 : S16384x2.ShapeCasts S16384x2
  slices_S16384x2_o0_0_S16384x1 : S16384x2.Slices ![0, 0] S16384x1
  shapeCasts_S16384x1_S16384 : S16384x1.ShapeCasts S16384
  slices_S16384x2_o0_1_S16384x1 : S16384x2.Slices ![0, 1] S16384x1
  iota_S16384x32_d1_w32 : S16384x32.Iotas .tc 32 [1]
  shapeCasts_S16384_S16384x1 : S16384.ShapeCasts S16384x1
  broadcasts_S16384x1_S16384x32 : S16384x1.Broadcasts S16384x32
  reduces_S16384x32_S16384 : S16384x32.Reduces [1] S16384
  iota_S1x16384_d1_w32 : S1x16384.Iotas .tc 32 [1]
  shapeCasts_S1x16384_S16384 : S1x16384.ShapeCasts S16384
  shapeCasts_S16384_S1x16384 : S16384.ShapeCasts S1x16384
  reduces_S1x16384_S1 : S1x16384.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S1507328x32.size a
  hwx0_0 : ∀ i : grid0.Coords, EltTy.bits .f32 = 32 ∨ (Rect.block (s := S1507328x32) S16384x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x2.size a ≤ S1507328x2.size a
  hwx0_1 : ∀ i : grid0.Coords, EltTy.bits .i32 = 32 ∨ (Rect.block (s := S1507328x2) S16384x2.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1500000x32 : Shape := ⟨2, ![1500000, 32]⟩
abbrev S1500000x2 : Shape := ⟨2, ![1500000, 2]⟩
abbrev S1500000x1 : Shape := ⟨2, ![1500000, 1]⟩
abbrev S1500000 : Shape := ⟨1, ![1500000]⟩
abbrev S_ : Shape := ⟨0, ![]⟩
abbrev S32 : Shape := ⟨1, ![32]⟩
abbrev S1x32 : Shape := ⟨2, ![1, 32]⟩

abbrev nBuf : Space → Nat
  | .hbm => 66
  | .vmem => 0
  | .smem => 0
  | _ => 0

abbrev bufTy : (tb : Table) → Fin (tcTables nBuf tb) → BufTy
  | .hbm, ⟨0, _⟩ => ⟨S1500000x32, .f32⟩
  | .hbm, ⟨1, _⟩ => ⟨S1500000x2, .i32⟩
  | .hbm, ⟨2, _⟩ => ⟨S1500000x1, .i32⟩
  | .hbm, ⟨3, _⟩ => ⟨S1500000, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1500000, .i32⟩
  | .hbm, ⟨8, _⟩ => ⟨S1500000, .i32⟩
  | .hbm, ⟨9, _⟩ => ⟨S_, .i32⟩
  | .hbm, ⟨10, _⟩ => ⟨S1500000, .i32⟩
  | .hbm, ⟨11, _⟩ => ⟨S1500000, .i32⟩
  | .hbm, ⟨12, _⟩ => ⟨S1500000x1, .i32⟩
  | .hbm, ⟨13, _⟩ => ⟨S1500000, .i32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1500000x32, .f32⟩
  | .hbm, ⟨18, _⟩ => ⟨S1500000x32, .f32⟩
  | .hbm, ⟨19, _⟩ => ⟨S_, .f32⟩
  | .hbm, ⟨20, _⟩ => ⟨S1500000x32, .f32⟩
  | .hbm, ⟨21, _⟩ => ⟨S1500000x32, .f32⟩
  | .hbm, ⟨22, _⟩ => ⟨S32, .i32⟩
  | .hbm, ⟨23, _⟩ => ⟨S1x32, .i32⟩
  | .hbm, ⟨24, _⟩ => ⟨S_, .f32⟩
  | .hbm, ⟨25, _⟩ => ⟨S1500000x32, .f32⟩
  | .hbm, ⟨26, _⟩ => ⟨S1500000x32, .f32⟩
  | .hbm, ⟨27, _⟩ => ⟨S_, .f32⟩
  | .hbm, ⟨28, _⟩ => ⟨S_, .f32⟩
  | .hbm, ⟨29, _⟩ => ⟨S1500000x32, .f32⟩
  | .hbm, ⟨30, _⟩ => ⟨S1500000x32, .f32⟩
  | .hbm, ⟨31, _⟩ => ⟨S1500000x32, .f32⟩
  | .hbm, ⟨32, _⟩ => ⟨S1500000x32, .f32⟩
  | .hbm, ⟨33, _⟩ => ⟨S1500000x1, .i32⟩
  | .hbm, ⟨34, _⟩ => ⟨S1500000x32, .i32⟩
  | .hbm, ⟨35, _⟩ => ⟨S1500000x32, .i32⟩
  | .hbm, ⟨36, _⟩ => ⟨S1500000x32, .i1⟩
  | .hbm, ⟨37, _⟩ => ⟨S_, .f32⟩
  | .hbm, ⟨38, _⟩ => ⟨S_, .f32⟩
  | .hbm, ⟨39, _⟩ => ⟨S1500000x32, .f32⟩
  | .hbm, ⟨40, _⟩ => ⟨S1500000x32, .f32⟩
  | .hbm, ⟨41, _⟩ => ⟨S_, .f32⟩
  | .hbm, ⟨42, _⟩ => ⟨S1500000, .f32⟩
  | .hbm, ⟨43, _⟩ => ⟨S1500000x32, .f32⟩
  | .hbm, ⟨44, _⟩ => ⟨S1500000x32, .f32⟩
  | .hbm, ⟨45, _⟩ => ⟨S_, .i32⟩
  | .hbm, ⟨46, _⟩ => ⟨S1500000, .i32⟩
  | .hbm, ⟨47, _⟩ => ⟨S1500000, .i32⟩
  | .hbm, ⟨48, _⟩ => ⟨S1500000x1, .i32⟩
  | .hbm, ⟨49, _⟩ => ⟨S1500000x32, .i32⟩
  | .hbm, ⟨50, _⟩ => ⟨S1500000x32, .i32⟩
  | .hbm, ⟨51, _⟩ => ⟨S1500000x32, .i1⟩
  | .hbm, ⟨52, _⟩ => ⟨S_, .f32⟩
  | .hbm, ⟨53, _⟩ => ⟨S_, .f32⟩
  | .hbm, ⟨54, _⟩ => ⟨S1500000x32, .f32⟩
  | .hbm, ⟨55, _⟩ => ⟨S1500000x32, .f32⟩
  | .hbm, ⟨56, _⟩ => ⟨S_, .f32⟩
  | .hbm, ⟨57, _⟩ => ⟨S1500000, .f32⟩
  | .hbm, ⟨58, _⟩ => ⟨S_, .i32⟩
  | .hbm, ⟨59, _⟩ => ⟨S1500000, .i32⟩
  | .hbm, ⟨60, _⟩ => ⟨S1500000, .i1⟩
  | .hbm, ⟨61, _⟩ => ⟨S1500000, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S1500000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_call2_v0 : Ref sig .tc := ⟨.hbm, 28, rfl⟩
abbrev main_call2_v1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_call3_v0 : Ref sig .tc := ⟨.hbm, 38, rfl⟩
abbrev main_call3_v1 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_7 : Ref sig .tc := ⟨.hbm, 52, rfl⟩
abbrev main_call4_v0 : Ref sig .tc := ⟨.hbm, 53, rfl⟩
abbrev main_call4_v1 : Ref sig .tc := ⟨.hbm, 54, rfl⟩
abbrev main_v27 : Ref sig .tc := ⟨.hbm, 55, rfl⟩
abbrev main_cst_8 : Ref sig .tc := ⟨.hbm, 56, rfl⟩
abbrev main_v28 : Ref sig .tc := ⟨.hbm, 57, rfl⟩
abbrev main_c_9 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_10 : Ref sig .tc := ⟨.hbm, 62, rfl⟩
abbrev main_v32 : Ref sig .tc := ⟨.hbm, 63, rfl⟩
abbrev main_cst_11 : Ref sig .tc := ⟨.hbm, 64, rfl⟩
abbrev main_v33 : Ref sig .tc := ⟨.hbm, 65, rfl⟩

abbrev nD : Nat := 1
abbrev τ : Topo := Topo.v7x

variable {F : FTy → Type} [FloatOps F]

class Facts₀ : Prop where
  slices_S1500000x2_S1500000x1_0_0 : S1500000x2.Slices ![0, 0] S1500000x1
  shapeCasts_S1500000x1_S1500000 : S1500000x1.ShapeCasts S1500000
  bcast_S_S1500000 : S_.BroadcastsInDim S1500000 (![] : Fin 0 → Fin S1500000.rank)
  slices_S1500000x2_S1500000x1_0_1 : S1500000x2.Slices ![0, 1] S1500000x1
  bcast_S_S1500000x32 : S_.BroadcastsInDim S1500000x32 (![] : Fin 0 → Fin S1500000x32.rank)
  bcast_S32_S1x32_1 : S32.BroadcastsInDim S1x32 (![1] : Fin 1 → Fin S1x32.rank)
  bcast_S1500000_S1500000x1_0 : S1500000.BroadcastsInDim S1500000x1 (![0] : Fin 1 → Fin S1500000x1.rank)
  bcast_S1x32_S1500000x32_0_1 : S1x32.BroadcastsInDim S1500000x32 (![0, 1] : Fin 2 → Fin S1500000x32.rank)
  bcast_S1500000x1_S1500000x32_0_1 : S1500000x1.BroadcastsInDim S1500000x32 (![0, 1] : Fin 2 → Fin S1500000x32.rank)
  reducesTo_S1500000x32_S1500000_d1 : S1500000x32.ReducesTo [1] S1500000
  h_S_ : 0 < S_.numel
  reducesTo_S1500000_S_d0 : S1500000.ReducesTo [0] S_

variable [Facts₀]

class Facts : Prop extends Facts₀ where

variable [Facts]
-- ==== Proof.KernelPieces.lean ====
/-
  What one run of the kernel body leaves in the running cell, as a value.

  The body's last store writes the whole one-entry output block, and its value is the body's arithmetic (the skeleton's
  last payload) of the two input blocks and of the cell as the body loaded it. At the first grid point the body first
  stores the zero block and loads it back, so the cell it adds to is that zero block; at every later point it is what the
  point before left.
-/
import proofs.«114943_j89962384982548_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later point: the one covering store's payload, its loads reading the whole buffers, the cell at what it held. -/
theorem out_B (c : Dev nD) (i : grid0.Coords) (a1 : Memref sig .tc .vmem S16384x32 .f32) (h1 : a1.IsWhole)
    (a2 : Memref sig .tc .vmem S16384x2 .i32) (h2 : a2.IsWhole) (a3 : Memref sig .tc .vmem S1x1 .f32) (h3 : a3.IsWhole)
    (hc : ¬cond0_0 i) (x0 : Vec F S16384x32 .f32) (x1 : Vec F S16384x2 .i32) (xo : Vec F S1x1 .f32) :
    out0_B_2 c i a1 h1 a2 h2 a3 h3 hc x0 x1 xo
      = k0_pay1 (BitVec.ofNat 32 (i 0).val) (k0_pay5 x1) (k0_pay7 x0 x1) (k0_pay8 x0) (k0_pay9 x1) xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S16384x32) hz,
    View.ld_unit_zero (S := S16384x2) hz, View.ld_unit_zero (S := S1x1) hz]

/-- The first point: the zero block is stored, loaded back, and added to. -/
theorem out_A (c : Dev nD) (i : grid0.Coords) (a1 : Memref sig .tc .vmem S16384x32 .f32) (h1 : a1.IsWhole)
    (a2 : Memref sig .tc .vmem S16384x2 .i32) (h2 : a2.IsWhole) (a3 : Memref sig .tc .vmem S1x1 .f32) (h3 : a3.IsWhole)
    (hc : cond0_0 i) (x0 : Vec F S16384x32 .f32) (x1 : Vec F S16384x2 .i32) :
    out0_A_2 c i a1 h1 a2 h2 a3 h3 hc x0 x1
      = k0_pay1 (BitVec.ofNat 32 (i 0).val) (k0_pay5 x1) (k0_pay7 x0 x1) (k0_pay8 x0) (k0_pay9 x1) (k0_pay2 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz]
  simp only [View.readAt_eq_ld, h1.read_unread, h2.read_unread, View.ld_unit_zero (S := S16384x32) hz,
    View.ld_unit_zero (S := S16384x2) hz, View.readCov_unit_zero (S := S1x1) _ hz]

end Cert.KernelIdeal.Pieces

end
-- ==== Proof.Hazard.lean ====
/-
  The survival loss both programs compute, as one function of the argument arrays over the extended reals.

  For a row with hazard predictions x₀ … x₃₁, a duration word d and an event word e:
    the clamped hazard        h  = min (max x ε) c            (ε the float 1e-7, c the float 0.99999988)
    the duration in range     t  = min (max d 1) 32            (signed words)
    the censored loss         Σₖ [k < t]      · (0 − log (max (1 − hₖ) ε))
    the event loss            Σₖ [k ≥ t − 1]  · (0 − log hₖ)
    the row's loss            the censored loss when e = 0, else the event loss.
  The result is (0 + Σ over the 1,500,000 rows of the row's loss) divided by the float 1,500,000.

  The kernel takes the rows 16,384 at a time, 92 tiles over an array padded to 1,507,328 rows, masks the rows past
  1,500,000 off, and adds each tile's sum into one running cell; `tileSum` is what one tile adds.
-/
import Idealize.ShloMosaic.PureOps.Ideal
import Idealize.ShloMosaic.Lib.ValueIdx

noncomputable section

namespace Cert.Hazard

open Idealize.ShloMosaic Idealize.ShloMosaic.ValueIdx

/-- The floats the two programs share: 1e-7, 0.99999988, 1, 0, and the row count 1,500,000. -/
abbrev eps : EReal := Ideal.ofBits .f32 0x33D6BF95#32
abbrev cap : EReal := Ideal.ofBits .f32 0x3F7FFFFE#32
abbrev one : EReal := Ideal.ofBits .f32 0x3F800000#32
abbrev zero : EReal := Ideal.ofBits .f32 0x00000000#32
abbrev nrows : EReal := Ideal.ofBits .f32 0x49B71B00#32

/-- The hazard clamped into [ε, c]. -/
def haz (x : EReal) : EReal := min (max x eps) cap

/-- One bin's censored term, 0 − log (max (1 − h) ε). -/
def censTerm (x : EReal) : EReal := zero - Ideal.log (max (one - haz x) eps)

/-- One bin's event term, 0 − log h. -/
def evtTerm (x : EReal) : EReal := zero - Ideal.log (haz x)

/-- The duration clamped into [1, 32] as signed words. -/
def dur (d : BitVec 32) : BitVec 32 := IntOp.minsi (IntOp.maxsi d 1#32) 32#32

/-- The censored loss of a row: the bins before the duration. -/
def censSum (x : Fin 32 → EReal) (d : BitVec 32) : EReal :=
  ∑ k : Fin 32, Scalar.select (IntOp.cmpi .slt (BitVec.ofNat 32 k.val) (dur d)) (censTerm (x k)) zero

/-- The event loss of a row: the bins from the duration's own on. -/
def evtSum (x : Fin 32 → EReal) (d : BitVec 32) : EReal :=
  ∑ k : Fin 32, Scalar.select (IntOp.cmpi .sge (BitVec.ofNat 32 k.val) (IntOp.subi (dur d) 1#32)) (evtTerm (x k)) zero

/-- A row's loss: censored when the event word is zero. -/
def rowLoss (x : Fin 32 → EReal) (d e : BitVec 32) : EReal :=
  Scalar.select (IntOp.cmpi .eq e 0#32) (censSum x d) (evtSum x d)

/-- Row `n` of the predictions, and its two target words. -/
abbrev rowOf (x0 : (⟨2, ![1500000, 32]⟩ : Shape).Idx → EReal) (n : Fin 1500000) : Fin 32 → EReal := fun k => x0 (ix2 n k)

/-- The sum of the rows' losses over the whole arrays. -/
def total (x0 : (⟨2, ![1500000, 32]⟩ : Shape).Idx → EReal) (x1 : (⟨2, ![1500000, 2]⟩ : Shape).Idx → BitVec 32) : EReal :=
  ∑ n : Fin 1500000, rowLoss (rowOf x0 n) (x1 (ix2 n (0 : Fin 2))) (x1 (ix2 n (1 : Fin 2)))

/-- The result both programs end with: the mean, as a rank-zero array. -/
def meanLoss (x0 : (⟨2, ![1500000, 32]⟩ : Shape).Idx → EReal) (x1 : (⟨2, ![1500000, 2]⟩ : Shape).Idx → BitVec 32) :
    (⟨0, ![]⟩ : Shape).Idx → EReal :=
  fun _ => Ideal.div (zero + total x0 x1) nrows

/-- What tile `a` (its grid coordinate as a word) adds to the running cell, from its block of predictions and of targets:
    the sum over the block's 16,384 rows of the row's loss, a row whose number 16384·a + r is not below 1,500,000 giving 0. -/
def tileSum (xb : (⟨2, ![16384, 32]⟩ : Shape).Idx → EReal) (tb : (⟨2, ![16384, 2]⟩ : Shape).Idx → BitVec 32) (a : BitVec 32) : EReal :=
  ∑ r : Fin 16384,
    Scalar.select (IntOp.cmpi .slt (IntOp.addi (Scalar.muli a 16384#32) (BitVec.ofNat 32 r.val)) 1500000#32)
      (rowLoss (fun k => xb (ix2 r k)) (tb (ix2 r (0 : Fin 2))) (tb (ix2 r (1 : Fin 2)))) zero

end Cert.Hazard

end
-- ==== Proof.LibColumnForms.lean ====
/-
  General lemmas for kernels that keep a reduced axis as a unit axis (`keepdims`) and for one-axis minima, read at an index.

  * `shapeCast_a_a1_apply`: an `[a]` array cast to a column `[a, 1]`, read at `(i, u)`, is the operand at `i`.
  * `broadcastTo_a1_ab_apply`: a column `[a, 1]` broadcast to `[a, b]`, read at `(p, c)`, is the column at `p`.
  * `shapeCast_a1b_ab_apply`: an `[a, 1, b]` array cast to `[a, b]`, read at `(i, j)`, is the operand at `(i, 0, j)`.
  * `lift_axis1`, `lift_axis0`: the source index of a rank-2 reduction along axis 1 (along axis 0) over a lane, with the
    reduced coordinate inserted, by coordinates.
  * `multiReduction_minimumf_single`: a float `vector.multi_reduction <minimumf>` over one axis at the ideal values is
    the fold of `min` from the accumulator's value over that axis's coordinates (the library states this for
    `<maximumf>`).
  Generic in the extents; nothing here mentions a program.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ColumnForms

open Idealize.ShloMosaic Idealize.ShloMosaic.ValueIdx

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array cast to `[a, b]` reads, at `(i, j)`, the operand at `(i, 0, j)`: the same row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Layout

section Reduce

/-- The source index over lane `r` of a reduction along axis 1 with coordinate `k` inserted is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The source index over lane `c` of a reduction along axis 0 with coordinate `k` inserted is `(k, c)`. -/
theorem lift_axis0 {a b : ℕ} (h : (⟨2, ![a, b]⟩ : Shape).Reduces [0] ⟨1, ![b]⟩) (c : Fin b) (k : Fin a) :
    h.lift (ix1 c) k = ix2 k c := by
  funext d
  apply Fin.ext
  match d with
  | ⟨0, _⟩ => rfl
  | ⟨1, _⟩ => rfl

/-- A float `vector.multi_reduction <minimumf>` over one axis, read at the ideal values: the fold of `min` from the
    accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

end Reduce

end Cert.ColumnForms

end
-- ==== Proof.TilePayload.lean ====
/-
  The value the kernel's body stores, over the extended reals, read at its one index.

  The body's arithmetic is a chain of pure terms: the clamped duration column, the event column, the clamped hazard, the
  censored row sums, the event terms and the event mask, and last the cell's new value. Each is read here at explicit
  coordinates and identified with the corresponding piece of the survival loss: a row's censored sum, its event sum, the
  choice between them on the event word, the mask of the rows past 1,500,000, and the sum over the tile's 16,384 rows
  added to the cell's old value.
-/
import proofs.«114943_j89962384982548_1_alg».proof.Proof.Gen.KernelIdeal.Skeleton
import proofs.«114943_j89962384982548_1_alg».proof.Proof.Hazard
import proofs.«114943_j89962384982548_1_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TilePayload

open Cert.KernelIdeal Cert.KernelIdeal.Gen Idealize.ShloMosaic Idealize.ShloMosaic.ValueIdx

/-! ## Layout forms at an index -/

/-- Column `c` of an `[a, 2]` array of words, cut out as `[a, 1]` and cast to `[a]`, reads at `r` the array at `(r, c)`. -/
theorem column_apply {α : Type} {a : ℕ} (c : Fin 2) (v : (⟨2, ![a, 2]⟩ : Shape).Idx → α)
    (hs : (⟨2, ![a, 2]⟩ : Shape).Slices ![0, c.val] ⟨2, ![a, 1]⟩) (hc : (⟨2, ![a, 1]⟩ : Shape).ShapeCasts ⟨1, ![a]⟩) (r : Fin a) :
    shapeCast ⟨1, ![a]⟩ (extractStridedSlice ⟨2, ![a, 1]⟩ ![0, c.val] v hs) hc (ix1 r) = v (ix2 r c) := by
  refine (shapeCast_apply _ hc (ix1 r) (ix2 r (0 : Fin 1)) ?_).trans ?_
  · rw [Shape.rowMajor_val_two, Shape.rowMajor_val_one]
    show r.val * 1 + 0 = r.val
    rw [Nat.mul_one, Nat.add_zero]
  · refine extractStridedSlice_apply _ v hs (ix2 r (0 : Fin 1)) (ix2 r c) fun ax => ?_
    match ax with
    | ⟨0, _⟩ => exact (Nat.zero_add _).symm
    | ⟨1, _⟩ => exact (Nat.add_zero _).symm

/-- A float sum along axis 1 of an `[a, b]` array, read at row `r`: the sum over the row's `b` entries. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (Cert.ColumnForms.lift_axis1 h r k)

/-- The one index of a `[1, 1]` array. -/
theorem idx11_eq (j : S1x1.Idx) : j = ix2 (0 : Fin 1) (0 : Fin 1) := by
  funext ax
  match ax with
  | ⟨0, _⟩ => exact Subsingleton.elim (α := Fin 1) _ _
  | ⟨1, _⟩ => exact Subsingleton.elim (α := Fin 1) _ _

/-! ## The payloads at an index -/

/-- The first stored value: the zero cell. -/
theorem pay2_eq : (k0_pay2 (F := Ideal) : FVec Ideal S1x1 .f32) = fun _ => Cert.Hazard.zero := rfl

/-- The target block's self cast is the block. -/
theorem pay3_eq (x1 : Vec Ideal S16384x2 .i32) : k0_pay3 (F := Ideal) x1 = x1 := by
  unfold k0_pay3
  exact shapeCast_self x1 _

/-- The clamped duration of row `r`. -/
theorem pay4_apply (x1 : Vec Ideal S16384x2 .i32) (r : Fin 16384) :
    k0_pay4 (F := Ideal) x1 (ix1 r) = Cert.Hazard.dur (x1 (ix2 r (0 : Fin 2))) := by
  unfold k0_pay4
  rw [pay3_eq]
  exact congrArg (fun w => IntOp.minsi (IntOp.maxsi w 1#32) 32#32)
    (column_apply (0 : Fin 2) x1 slices_S16384x2_o0_0_S16384x1 shapeCasts_S16384x1_S16384 r)

/-- The event word of row `r`. -/
theorem pay5_apply (x1 : Vec Ideal S16384x2 .i32) (r : Fin 16384) :
    k0_pay5 (F := Ideal) x1 (ix1 r) = x1 (ix2 r (1 : Fin 2)) := by
  unfold k0_pay5
  rw [pay3_eq]
  exact column_apply (1 : Fin 2) x1 slices_S16384x2_o0_1_S16384x1 shapeCasts_S16384x1_S16384 r

/-- The clamped hazard, entry by entry. -/
theorem pay6_eq (x0 : Vec Ideal S16384x32 .f32) : k0_pay6 (F := Ideal) x0 = fun j => Cert.Hazard.haz (x0 j) := by
  unfold k0_pay6
  rw [shapeCast_self x0 shapeCasts_S16384x32_S16384x32]
  rfl

/-- The event terms, entry by entry. -/
theorem pay8_eq (x0 : Vec Ideal S16384x32 .f32) : k0_pay8 (F := Ideal) x0 = fun j => Cert.Hazard.evtTerm (x0 j) := by
  unfold k0_pay8
  rw [pay6_eq]
  rfl

/-- A row vector `w` set as a column and spread along the 32 bins reads, at `(r, k)`, the vector at `r`. -/
theorem spread_apply (w : IVec S16384 32) (r : Fin 16384) (k : Fin 32) :
    broadcastTo S16384x32 (shapeCast S16384x1 w shapeCasts_S16384_S16384x1) broadcasts_S16384x1_S16384x32 (ix2 r k)
      = w (ix1 r) :=
  (Cert.ColumnForms.broadcastTo_a1_ab_apply _ broadcasts_S16384x1_S16384x32 r k).trans
    (Cert.ColumnForms.shapeCast_a_a1_apply w shapeCasts_S16384_S16384x1 r (0 : Fin 1))

/-- The bin number at `(r, k)` is `k`. -/
theorem binIota_apply (r : Fin 16384) (k : Fin 32) :
    iota .tc S16384x32 32 [1] iota_S16384x32_d1_w32 (ix2 r k) = BitVec.ofNat 32 k.val :=
  iota_single_apply .tc S16384x32 32 1 iota_S16384x32_d1_w32 (ix2 r k)

/-- The censored sum of row `r`. -/
theorem pay7_apply (x0 : Vec Ideal S16384x32 .f32) (x1 : Vec Ideal S16384x2 .i32) (r : Fin 16384) :
    k0_pay7 (F := Ideal) x0 x1 (ix1 r) = Cert.Hazard.censSum (fun k => x0 (ix2 r k)) (x1 (ix2 r (0 : Fin 2))) := by
  unfold k0_pay7
  refine (rowSum_apply _ _ reduces_S16384x32_S16384 _ _ r).trans ?_
  unfold Cert.Hazard.censSum
  refine Finset.sum_congr rfl fun k _ => ?_
  have h1 := binIota_apply r k
  have h2 := (spread_apply (k0_pay4 (F := Ideal) x1) r k).trans (pay4_apply x1 r)
  have h3 := congrFun (pay6_eq x0) (ix2 r k)
  show Scalar.select (IntOp.cmpi .slt (iota .tc S16384x32 32 [1] iota_S16384x32_d1_w32 (ix2 r k))
        (broadcastTo S16384x32 (shapeCast S16384x1 (k0_pay4 (F := Ideal) x1) shapeCasts_S16384_S16384x1)
          broadcasts_S16384x1_S16384x32 (ix2 r k)))
      (Cert.Hazard.zero - Ideal.log (max (Cert.Hazard.one - k0_pay6 (F := Ideal) x0 (ix2 r k)) Cert.Hazard.eps))
      Cert.Hazard.zero = _
  rw [h1, h2, h3]
  rfl

/-- The event mask at `(r, k)`: bin `k` is not before the duration's own. -/
theorem pay9_apply (x1 : Vec Ideal S16384x2 .i32) (r : Fin 16384) (k : Fin 32) :
    k0_pay9 (F := Ideal) x1 (ix2 r k)
      = IntOp.cmpi .sge (BitVec.ofNat 32 k.val) (IntOp.subi (Cert.Hazard.dur (x1 (ix2 r (0 : Fin 2)))) 1#32) := by
  unfold k0_pay9
  have h1 := binIota_apply r k
  have h2 := spread_apply (subi (k0_pay4 (F := Ideal) x1) (broadcast S16384 1#32)) r k
  show IntOp.cmpi .sge (iota .tc S16384x32 32 [1] iota_S16384x32_d1_w32 (ix2 r k))
      (broadcastTo S16384x32 (shapeCast S16384x1 (subi (k0_pay4 (F := Ideal) x1) (broadcast S16384 1#32))
        shapeCasts_S16384_S16384x1) broadcasts_S16384x1_S16384x32 (ix2 r k)) = _
  rw [h1, h2]
  show IntOp.cmpi .sge _ (IntOp.subi (k0_pay4 (F := Ideal) x1 (ix1 r)) 1#32) = _
  rw [pay4_apply]

/-- The entry at position `[0, 0]` of a `[1, 1]` array. -/
theorem extractAt00 {α : Type} (v : S1x1.Idx → α) (h : ∀ a, (![0, 0] : Fin 2 → Nat) a < S1x1.size a) :
    extractAt ![0, 0] v h = v (ix2 (0 : Fin 1) (0 : Fin 1)) :=
  congrArg v (idx11_eq _)

/-- The row number inside the tile at `r`: the lane count along the `[1, 16384]` form, cast to `[16384]`. -/
theorem rowIota_apply (r : Fin 16384) :
    shapeCast S16384 (iota .tc S1x16384 32 [1] iota_S1x16384_d1_w32) shapeCasts_S1x16384_S16384 (ix1 r)
      = BitVec.ofNat 32 r.val :=
  (shapeCast_1a_a_apply _ shapeCasts_S1x16384_S16384 r).trans
    (iota_single_apply .tc S1x16384 32 1 iota_S1x16384_d1_w32 (ix2 (0 : Fin 1) r))

/-- The cell's new value over any event column, censored sums, event terms and event mask: the old value plus the sum
    over the tile's rows of the chosen row sum, the rows numbered from 1,500,000 on giving zero. -/
theorem pay1_gen (a : BitVec 32) (v14 : IVec S16384 32) (v32 : FVec Ideal S16384 .f32) (v35 : FVec Ideal S16384x32 .f32)
    (v40 : IVec S16384x32 1) (v61 : Vec Ideal S1x1 .f32) :
    k0_pay1 (F := Ideal) a v14 v32 v35 v40 v61 = fun _ => v61 (ix2 (0 : Fin 1) (0 : Fin 1)) +
      ∑ r : Fin 16384,
        Scalar.select (IntOp.cmpi .slt (IntOp.addi (Scalar.muli a 16384#32) (BitVec.ofNat 32 r.val)) 1500000#32)
          (Scalar.select (IntOp.cmpi .eq (v14 (ix1 r)) 0#32) (v32 (ix1 r))
            (∑ k : Fin 32, Scalar.select (v40 (ix2 r k)) (v35 (ix2 r k)) Cert.Hazard.zero))
          Cert.Hazard.zero := by
  funext j
  unfold k0_pay1
  refine congrArg₂ (fun p q : EReal => p + q) ?_ ?_
  · exact (congrFun (shapeCast_self v61 shapeCasts_S1x1_S1x1) j).trans (congrArg v61 (idx11_eq j))
  · refine (extractAt00 _ inpos_S1x1_p0_0).trans ?_
    refine (Cert.ColumnForms.shapeCast_a_a1_apply _ shapeCasts_S1_S1x1 (0 : Fin 1) (0 : Fin 1)).trans ?_
    refine (rowSum_apply _ _ reduces_S1x16384_S1 _ _ (0 : Fin 1)).trans ?_
    refine Finset.sum_congr rfl fun r _ => ?_
    refine (shapeCast_a_1a_apply _ shapeCasts_S16384_S1x16384 (0 : Fin 1) r).trans ?_
    have h1 := rowIota_apply r
    have h2 := rowSum_apply (select v40 v35 (broadcast S16384x32 Cert.Hazard.zero)) 0x00000000#32
      reduces_S16384x32_S16384 (.inl rfl) rfl r
    show Scalar.select (IntOp.cmpi .slt (IntOp.addi (Scalar.muli a 16384#32)
          (shapeCast S16384 (iota .tc S1x16384 32 [1] iota_S1x16384_d1_w32) shapeCasts_S1x16384_S16384 (ix1 r))) 1500000#32)
        (Scalar.select (IntOp.cmpi .eq (v14 (ix1 r)) 0#32) (v32 (ix1 r))
          (multiReduction .add [1] S16384 (select v40 v35 (broadcast S16384x32 Cert.Hazard.zero)) 0x00000000#32
            reduces_S16384x32_S16384 (.inl rfl) rfl (ix1 r)))
        Cert.Hazard.zero = _
    rw [h1, h2]
    rfl

/-- The cell's new value: its old value plus what the tile adds. -/
theorem pay1_eq (a : BitVec 32) (x0 : Vec Ideal S16384x32 .f32) (x1 : Vec Ideal S16384x2 .i32) (v61 : Vec Ideal S1x1 .f32) :
    k0_pay1 (F := Ideal) a (k0_pay5 (F := Ideal) x1) (k0_pay7 (F := Ideal) x0 x1) (k0_pay8 (F := Ideal) x0)
        (k0_pay9 (F := Ideal) x1) v61
      = fun _ => v61 (ix2 (0 : Fin 1) (0 : Fin 1)) + Cert.Hazard.tileSum x0 x1 a := by
  rw [pay1_gen]
  funext _
  refine congrArg (fun q : EReal => v61 (ix2 (0 : Fin 1) (0 : Fin 1)) + q) ?_
  unfold Cert.Hazard.tileSum
  refine Finset.sum_congr rfl fun r _ => ?_
  rw [pay5_apply, pay7_apply, pay8_eq]
  refine congrArg (fun q : EReal => Scalar.select _ (Scalar.select _ _ q) Cert.Hazard.zero) ?_
  unfold Cert.Hazard.evtSum
  refine Finset.sum_congr rfl fun k _ => ?_
  rw [pay9_apply]

end Cert.KernelIdeal.TilePayload

end
-- ==== Proof.LibSumTiles.lean ====
/-
  A general lemma. A finite sum over the T·K indices of a tiled axis is the sum, over the T tiles, of each tile's sum
  over its K indices, index K·s + kk being index kk of tile s. It holds in any commutative additive monoid, so in
  particular over the extended reals, where no finiteness is needed to regroup a sum.
-/
import Mathlib.Algebra.BigOperators.Fin
import Mathlib.Logic.Equiv.Fin.Basic

namespace Cert.SumTiles

/-- Index `kk` of tile `s`. -/
def at_ {T K : ℕ} (s : Fin T) (kk : Fin K) : Fin (T * K) :=
  ⟨K * s.val + kk.val, by
    have hs := s.isLt; have hk := kk.isLt
    calc K * s.val + kk.val < K * s.val + K := Nat.add_lt_add_left hk _
      _ = K * (s.val + 1) := by rw [Nat.mul_succ]
      _ ≤ K * T := Nat.mul_le_mul_left _ hs
      _ = T * K := Nat.mul_comm _ _⟩

theorem at_val {T K : ℕ} (s : Fin T) (kk : Fin K) : (at_ s kk).val = K * s.val + kk.val := rfl

/-- A sum over a tiled axis, tile by tile. -/
theorem sum_tiles {M : Type*} [AddCommMonoid M] (T K : ℕ) (g : Fin (T * K) → M) :
    ∑ k : Fin (T * K), g k = ∑ s : Fin T, ∑ kk : Fin K, g (at_ s kk) := by
  rw [← Equiv.sum_comp finProdFinEquiv g, Fintype.sum_prod_type]
  refine Finset.sum_congr rfl fun s _ => Finset.sum_congr rfl fun kk _ => congrArg g (Fin.ext ?_)
  show kk.val + K * s.val = K * s.val + kk.val
  exact Nat.add_comm _ _

end Cert.SumTiles
-- ==== Proof.Tiles.lean ====
/-
  The 92 tile sums add up to the total.

  Row r of tile t is row 16384·t + r of the padded array of 92·16384 = 1,507,328 rows. Its number, computed on 32-bit
  words, is the natural number itself (16384·91 + 16383 is far below 2³¹), so the signed comparison with 1,500,000 is
  the comparison of naturals. Hence tile t adds, for each of its rows, the row's loss when the row's number is below
  1,500,000 and 0 otherwise: the padded sequence of losses read at index 16384·t + r. Summing over the tiles is summing
  the padded sequence over all 1,507,328 indices, and the indices from 1,500,000 on contribute 0.
-/
import proofs.«114943_j89962384982548_1_alg».proof.Proof.Hazard
import proofs.«114943_j89962384982548_1_alg».proof.Proof.LibSumTiles
import Idealize.ShloMosaic.PureOps.Ideal.Laws
import Idealize.ShloMosaic.Lib.ValueIdx
import Mathlib.Algebra.BigOperators.Fin
import Mathlib.Data.Finset.Range

noncomputable section

namespace Cert.Hazard

open Idealize.ShloMosaic Idealize.ShloMosaic.ValueIdx

/-! ## The mask -/

/-- The row number 16384·t + r computed on 32-bit words is the word of that natural number. -/
theorem row_word (t r : ℕ) (ht : t < 92) (hr : r < 16384) :
    IntOp.addi (Scalar.muli (BitVec.ofNat 32 t) 16384#32) (BitVec.ofNat 32 r) = BitVec.ofNat 32 (16384 * t + r) := by
  apply BitVec.eq_of_toNat_eq
  simp only [IntOp.addi, Scalar.muli, IntOp.muli, BitVec.toNat_add, BitVec.toNat_mul, BitVec.toNat_ofNat]
  have h1 : t % 2 ^ 32 = t := Nat.mod_eq_of_lt (by omega)
  have h2 : r % 2 ^ 32 = r := Nat.mod_eq_of_lt (by omega)
  have h3 : 16384 % 2 ^ 32 = 16384 := by norm_num
  rw [h1, h2, h3]
  have h4 : t * 16384 % 2 ^ 32 = t * 16384 := Nat.mod_eq_of_lt (by omega)
  rw [h4]
  congr 1
  omega

/-- The mask bit of row r of tile t is set exactly when the row's number is below 1,500,000: both words are below 2³¹,
    so the signed comparison is the comparison of the naturals. -/
theorem mask_iff (t r : ℕ) (ht : t < 92) (hr : r < 16384) :
    IntOp.cmpi .slt (IntOp.addi (Scalar.muli (BitVec.ofNat 32 t) 16384#32) (BitVec.ofNat 32 r)) 1500000#32 = 1#1
      ↔ 16384 * t + r < 1500000 := by
  rw [row_word t r ht hr]
  have hs : (BitVec.ofNat 32 (16384 * t + r)).slt 1500000#32 = decide (16384 * t + r < 1500000) := by
    rw [BitVec.slt_eq_decide, BitVec.toInt_eq_toNat_cond, BitVec.toInt_eq_toNat_cond]
    simp only [BitVec.toNat_ofNat]
    have h1 : (16384 * t + r) % 2 ^ 32 = 16384 * t + r := Nat.mod_eq_of_lt (by omega)
    have h2 : 1500000 % 2 ^ 32 = 1500000 := by norm_num
    rw [h1, h2]
    rw [if_pos (by omega), if_pos (by norm_num)]
    congr 1
    apply propext
    constructor <;> intro h <;> omega
  show BitVec.ofBool ((BitVec.ofNat 32 (16384 * t + r)).slt 1500000#32) = 1#1 ↔ _
  rw [hs]
  by_cases h : 16384 * t + r < 1500000
  · simp [h]
  · simp [h]

/-! ## The padded sequence of losses -/

/-- The loss of row j when j is below 1,500,000, and 0 from there on. -/
def lossAt (x0 : (⟨2, ![1500000, 32]⟩ : Shape).Idx → EReal) (x1 : (⟨2, ![1500000, 2]⟩ : Shape).Idx → BitVec 32)
    (j : ℕ) : EReal :=
  if h : j < 1500000 then
    rowLoss (rowOf x0 ⟨j, h⟩) (x1 (ix2 (⟨j, h⟩ : Fin 1500000) (0 : Fin 2))) (x1 (ix2 (⟨j, h⟩ : Fin 1500000) (1 : Fin 2)))
  else 0

/-- What tile t adds is the padded sequence summed over the tile's 16,384 indices. -/
theorem tileSum_eq
    (x0 : (⟨2, ![1500000, 32]⟩ : Shape).Idx → EReal) (x1 : (⟨2, ![1500000, 2]⟩ : Shape).Idx → BitVec 32)
    (xb : Fin 92 → (⟨2, ![16384, 32]⟩ : Shape).Idx → EReal) (tb : Fin 92 → (⟨2, ![16384, 2]⟩ : Shape).Idx → BitVec 32)
    (hx : ∀ (t : Fin 92) (r : Fin 16384) (k : Fin 32) (h : 16384 * t.val + r.val < 1500000),
      xb t (ix2 r k) = x0 (ix2 ⟨16384 * t.val + r.val, h⟩ k))
    (ht : ∀ (t : Fin 92) (r : Fin 16384) (q : Fin 2) (h : 16384 * t.val + r.val < 1500000),
      tb t (ix2 r q) = x1 (ix2 ⟨16384 * t.val + r.val, h⟩ q))
    (t : Fin 92) :
    tileSum (xb t) (tb t) (BitVec.ofNat 32 t.val)
      = ∑ r : Fin 16384, lossAt x0 x1 (Cert.SumTiles.at_ t r : Fin (92 * 16384)).val := by
  unfold tileSum
  refine Finset.sum_congr rfl fun r _ => ?_
  rw [Cert.SumTiles.at_val]
  by_cases h : 16384 * t.val + r.val < 1500000
  · rw [(mask_iff t.val r.val t.isLt r.isLt).2 h, select_one]
    unfold lossAt
    rw [dif_pos h]
    have hrow : (fun k => xb t (ix2 r k)) = rowOf x0 ⟨16384 * t.val + r.val, h⟩ := by
      funext k
      exact hx t r k h
    rw [hrow, ht t r 0 h, ht t r 1 h]
  · have hm : IntOp.cmpi .slt (IntOp.addi (Scalar.muli (BitVec.ofNat 32 t.val) 16384#32) (BitVec.ofNat 32 r.val))
        1500000#32 = 0#1 :=
      eq_zero_of_ne_one fun h1 => h ((mask_iff t.val r.val t.isLt r.isLt).1 h1)
    rw [hm, select_zero]
    unfold lossAt
    rw [dif_neg h]
    exact Ideal.ofBits_zero_f32

/-- The padded sequence summed over its 1,507,328 indices is the total: the indices from 1,500,000 on give 0. -/
theorem sum_lossAt
    (x0 : (⟨2, ![1500000, 32]⟩ : Shape).Idx → EReal) (x1 : (⟨2, ![1500000, 2]⟩ : Shape).Idx → BitVec 32) :
    ∑ j : Fin (92 * 16384), lossAt x0 x1 j.val = total x0 x1 := by
  have htot : total x0 x1 = ∑ n : Fin 1500000, lossAt x0 x1 n.val := by
    unfold total
    refine Finset.sum_congr rfl fun n _ => ?_
    unfold lossAt
    rw [dif_pos n.isLt]
  rw [htot, Fin.sum_univ_eq_sum_range (lossAt x0 x1) (92 * 16384),
    Fin.sum_univ_eq_sum_range (lossAt x0 x1) 1500000]
  symm
  refine Finset.sum_subset (Finset.range_subset_range.2 (by norm_num)) fun j _ hj => ?_
  unfold lossAt
  rw [dif_neg (by simpa using hj)]

/-! ## The statements -/

/-- The 92 tile sums add up to the total. -/
theorem tiles_total
    (x0 : (⟨2, ![1500000, 32]⟩ : Shape).Idx → EReal) (x1 : (⟨2, ![1500000, 2]⟩ : Shape).Idx → BitVec 32)
    (xb : Fin 92 → (⟨2, ![16384, 32]⟩ : Shape).Idx → EReal) (tb : Fin 92 → (⟨2, ![16384, 2]⟩ : Shape).Idx → BitVec 32)
    (hx : ∀ (t : Fin 92) (r : Fin 16384) (k : Fin 32) (h : 16384 * t.val + r.val < 1500000),
      xb t (ix2 r k) = x0 (ix2 ⟨16384 * t.val + r.val, h⟩ k))
    (ht : ∀ (t : Fin 92) (r : Fin 16384) (q : Fin 2) (h : 16384 * t.val + r.val < 1500000),
      tb t (ix2 r q) = x1 (ix2 ⟨16384 * t.val + r.val, h⟩ q)) :
    ∑ t : Fin 92, tileSum (xb t) (tb t) (BitVec.ofNat 32 t.val) = total x0 x1 := by
  calc ∑ t : Fin 92, tileSum (xb t) (tb t) (BitVec.ofNat 32 t.val)
      = ∑ t : Fin 92, ∑ r : Fin 16384, lossAt x0 x1 (Cert.SumTiles.at_ t r : Fin (92 * 16384)).val :=
        Finset.sum_congr rfl fun t _ => tileSum_eq x0 x1 xb tb hx ht t
    _ = ∑ j : Fin (92 * 16384), lossAt x0 x1 j.val :=
        (Cert.SumTiles.sum_tiles 92 16384 fun j : Fin (92 * 16384) => lossAt x0 x1 j.val).symm
    _ = total x0 x1 := sum_lossAt x0 x1

/-- The same over the range of tile numbers, the form a running accumulation gives. -/
theorem tiles_total_range
    (x0 : (⟨2, ![1500000, 32]⟩ : Shape).Idx → EReal) (x1 : (⟨2, ![1500000, 2]⟩ : Shape).Idx → BitVec 32)
    (xb : Fin 92 → (⟨2, ![16384, 32]⟩ : Shape).Idx → EReal) (tb : Fin 92 → (⟨2, ![16384, 2]⟩ : Shape).Idx → BitVec 32)
    (hx : ∀ (t : Fin 92) (r : Fin 16384) (k : Fin 32) (h : 16384 * t.val + r.val < 1500000),
      xb t (ix2 r k) = x0 (ix2 ⟨16384 * t.val + r.val, h⟩ k))
    (ht : ∀ (t : Fin 92) (r : Fin 16384) (q : Fin 2) (h : 16384 * t.val + r.val < 1500000),
      tb t (ix2 r q) = x1 (ix2 ⟨16384 * t.val + r.val, h⟩ q)) :
    ∑ s ∈ Finset.range 92,
        (if h : s < 92 then tileSum (xb ⟨s, h⟩) (tb ⟨s, h⟩) (BitVec.ofNat 32 s) else 0) = total x0 x1 := by
  rw [← tiles_total x0 x1 xb tb hx ht,
    ← Fin.sum_univ_eq_sum_range
      (fun s => if h : s < 92 then tileSum (xb ⟨s, h⟩) (tb ⟨s, h⟩) (BitVec.ofNat 32 s) else 0) 92]
  refine Finset.sum_congr rfl fun t _ => ?_
  rw [dif_pos t.isLt]

end Cert.Hazard

end
-- ==== Proof.KernelValue.lean ====
/-
  The idealized kernel's result, read off its run: the mean survival loss of the argument arrays.

  The host first pads both arrays with 7,328 zero rows, to 1,507,328 rows. The kernel walks 92 grid points; at point t it
  is handed rows 16384·t … 16384·t + 16383 of the padded arrays, and adds to one running cell the sum, over those rows,
  of the row's loss, a row numbered 1,500,000 or more contributing 0 (`tileSum`). At the first point the cell is first
  set to 0. So after point n the cell holds 0 + Σ_{s ≤ n} (the addend of point s), by induction on n; the cell is written
  back to the one-entry result array after the last point only, and that write-back covers the array. The host then
  reshapes the entry to rank zero and divides it by 1,500,000.

  A padded row below 1,500,000 is the argument's row, and the rows the mask keeps are exactly those, so the 92 addends
  sum to the total over the argument arrays' rows (regrouping a finite sum over the extended reals needs no finiteness).
-/
import proofs.«114943_j89962384982548_1_alg».proof.Proof.KernelPieces
import proofs.«114943_j89962384982548_1_alg».proof.Proof.Hazard
import proofs.«114943_j89962384982548_1_alg».proof.Proof.TilePayload
import proofs.«114943_j89962384982548_1_alg».proof.Proof.Tiles
import Idealize.ShloMosaic.Lib.Pipeline.Value
import Idealize.ShloMosaic.Lib.StableHlo.Run
import Idealize.ShloMosaic.Lib.KernelVsHost
import Idealize.ShloMosaic.Lib.Tactic

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.RunValue

open Cert.KernelIdeal Cert.KernelIdeal.Gen Cert.Hazard

variable (m : (ℓ : Loc nD τ sig) → Buf (Elt Ideal) ℓ) (ρ : Dev nD → PrngReg)

open Cert.KernelIdeal.TilePayload (pay1_eq pay2_eq)

theorem lt92 {s : ℕ} (h : s < 92) : s < cfg0.N := by rw [show cfg0.N = 92 from N_0]; exact h

abbrev xblk (c : Dev nD) (t : Fin cfg0.N) : Vec Ideal S16384x32 .f32 := iblk m c 0 t
abbrev tblk (c : Dev nD) (t : Fin cfg0.N) : Vec Ideal S16384x2 .i32 := iblk m c 1 t

def addend (c : Dev nD) (s : ℕ) : EReal :=
  if h : s < 92 then tileSum (xblk m c ⟨s, lt92 h⟩) (tblk m c ⟨s, lt92 h⟩) (BitVec.ofNat 32 s) else 0

theorem coords_val : ∀ t : Fin cfg0.N, (grid0.coords t 0).val = t.val :=
  (by decide +kernel : ∀ t : Fin grid0.N, (grid0.coords t 0).val = t.val)

theorem outs_eq (c : Dev nD) : ∀ (n : ℕ) (h : n < cfg0.N),
    outsAt0 m c n h = fun _ => zero + ∑ s ∈ Finset.range (n + 1), addend m c s
  | 0, h => by
    refine (outsAt0_A m c ⟨0, h⟩ rfl).trans ?_
    refine (Pieces.out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      ((hcond0_0 ⟨0, h⟩).mpr (Nat.zero_mod _)) (iblk m c 0 ⟨0, h⟩) (iblk m c 1 ⟨0, h⟩)).trans ?_
    refine (pay1_eq (BitVec.ofNat 32 (grid0.coords ⟨0, h⟩ 0).val) (xblk m c ⟨0, h⟩) (tblk m c ⟨0, h⟩) (k0_pay2 (F := Ideal))).trans ?_
    funext _
    rw [pay2_eq, Finset.sum_range_one, coords_val]
    unfold addend
    rw [dif_pos (by decide : (0 : ℕ) < 92)]
  | n + 1, h => by
    have hN : cfg0.N = 92 := N_0
    have hB : ¬(⟨n + 1, h⟩ : Fin cfg0.N).val % 92 = 0 := by dsimp only; omega
    refine (outsAt0_B m c ⟨n + 1, h⟩ hB).trans ?_
    refine (Pieces.out_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hc => hB ((hcond0_0 ⟨n + 1, h⟩).mp hc)) (iblk m c 0 ⟨n + 1, h⟩) (iblk m c 1 ⟨n + 1, h⟩)
      (outsAt0 m c n (Nat.lt_of_succ_lt h))).trans ?_
    refine (pay1_eq (BitVec.ofNat 32 (grid0.coords ⟨n + 1, h⟩ 0).val) (xblk m c ⟨n + 1, h⟩) (tblk m c ⟨n + 1, h⟩)
      (outsAt0 m c n (Nat.lt_of_succ_lt h))).trans ?_
    funext _
    rw [outs_eq c n (Nat.lt_of_succ_lt h), Finset.sum_range_succ _ (n + 1), coords_val]
    refine (add_assoc _ _ _).trans (congrArg (fun y => zero + (∑ s ∈ Finset.range (n + 1), addend m c s + y)) ?_)
    unfold addend
    rw [dif_pos (by omega : n + 1 < 92)]

/-! ## The blocks the body is run on -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

abbrev padded0 (c : Dev nD) : Vec Ideal S1507328x32 .f32 := V m c main_v0
abbrev padded1 (c : Dev nD) : Vec Ideal S1507328x2 .i32 := V m c main_v1

theorem xblk_apply (c : Dev nD) (t : Fin cfg0.N) (r : Fin 16384) (k : Fin 32) (hr : 16384 * t.val + r.val < 1507328) :
    xblk m c t (ix2 r k) = padded0 m c (ix2 ⟨16384 * t.val + r.val, hr⟩ k) := by
  show iblk m c 0 t (ix2 r k) = V m c main_v0 _
  unfold iblk
  rw [View.read_apply]
  show V m c main_v0 _ = V m c main_v0 _
  congr 1
  funext a
  apply Fin.ext
  match a with
  | ⟨0, _⟩ => show win0_0.index t 0 * 16384 + 1 * r.val = 16384 * t.val + r.val; rw [(idx0 t).1]; omega
  | ⟨1, _⟩ => show win0_0.index t 1 * 32 + 1 * k.val = k.val; rw [(idx0 t).2]; omega

theorem tblk_apply (c : Dev nD) (t : Fin cfg0.N) (r : Fin 16384) (q : Fin 2) (hr : 16384 * t.val + r.val < 1507328) :
    tblk m c t (ix2 r q) = padded1 m c (ix2 ⟨16384 * t.val + r.val, hr⟩ q) := by
  show iblk m c 1 t (ix2 r q) = V m c main_v1 _
  unfold iblk
  rw [View.read_apply]
  show V m c main_v1 _ = V m c main_v1 _
  congr 1
  funext a
  apply Fin.ext
  match a with
  | ⟨0, _⟩ => show win0_1.index t 0 * 16384 + 1 * r.val = 16384 * t.val + r.val; rw [(idx1 t).1]; omega
  | ⟨1, _⟩ => show win0_1.index t 1 * 2 + 1 * q.val = q.val; rw [(idx1 t).2]; omega

theorem padded0_eq (c : Dev nD) : padded0 m c
    = pad S1507328x32 ![0, 0] ![7328, 0] ![0, 0] (m ((c : Thread nD τ).loc main_arg0))
        (sitofp (F := Ideal) .f32 (constantI S_ 32 0#32)) pads_S1500000x32_S1507328x32_073280_000 h_S_ := by
  show V m c main_v0 = _
  dsimp only [V, V0]
  simp only [hostOps0, hostOps0_1, hostOps0_2, hostOps0_3, List.flatten_cons, List.flatten_nil, List.append_nil, List.cons_append,
    List.nil_append]
  after_results
  rfl

theorem padded1_eq (c : Dev nD) : padded1 m c
    = pad S1507328x2 ![0, 0] ![7328, 0] ![0, 0] (m ((c : Thread nD τ).loc main_arg1))
        (id (constantI S_ 32 0#32)) pads_S1500000x2_S1507328x2_073280_000 h_S_ := by
  show V m c main_v1 = _
  dsimp only [V, V0]
  simp only [hostOps0, hostOps0_1, hostOps0_2, hostOps0_3, List.flatten_cons, List.flatten_nil, List.append_nil, List.cons_append,
    List.nil_append]
  after_results
  rfl

/-- A row of the padded predictions below 1,500,000 is the argument's row. -/
theorem padded0_apply (c : Dev nD) (n : Fin 1500000) (k : Fin 32) (hn : n.val < 1507328) :
    padded0 m c (ix2 ⟨n.val, hn⟩ k) = m ((c : Thread nD τ).loc main_arg0) (ix2 n k) := by
  rw [padded0_eq]
  exact pad_apply_of_inside _ _ _ _ _ _ _ _ (ix2 n k) (fun a => match a with
    | ⟨0, _⟩ => by show n.val = 0 + n.val * (0 + 1); omega
    | ⟨1, _⟩ => by show k.val = 0 + k.val * (0 + 1); omega)

theorem padded1_apply (c : Dev nD) (n : Fin 1500000) (q : Fin 2) (hn : n.val < 1507328) :
    padded1 m c (ix2 ⟨n.val, hn⟩ q) = m ((c : Thread nD τ).loc main_arg1) (ix2 n q) := by
  rw [padded1_eq]
  exact pad_apply_of_inside _ _ _ _ _ _ _ _ (ix2 n q) (fun a => match a with
    | ⟨0, _⟩ => by show n.val = 0 + n.val * (0 + 1); omega
    | ⟨1, _⟩ => by show q.val = 0 + q.val * (0 + 1); omega)

/-! ## The sum of the 92 addends is the total -/

theorem addends_total (c : Dev nD) :
    ∑ s ∈ Finset.range 92, addend m c s = total (m ((c : Thread nD τ).loc main_arg0)) (m ((c : Thread nD τ).loc main_arg1)) := by
  refine Eq.trans ?_ (tiles_total_range (m ((c : Thread nD τ).loc main_arg0)) (m ((c : Thread nD τ).loc main_arg1))
    (fun t => xblk m c ⟨t.val, lt92 t.isLt⟩) (fun t => tblk m c ⟨t.val, lt92 t.isLt⟩)
    (fun t r k h => (xblk_apply m c ⟨t.val, lt92 t.isLt⟩ r k (by dsimp only; omega)).trans
      (padded0_apply m c ⟨16384 * t.val + r.val, h⟩ k _))
    (fun t r q h => (tblk_apply m c ⟨t.val, lt92 t.isLt⟩ r q (by dsimp only; omega)).trans
      (padded1_apply m c ⟨16384 * t.val + r.val, h⟩ q _)))
  rfl

/-! ## The result array -/

/-- The running cell after the last point, as the contents of the kernel's one-entry result array. -/
abbrev cell (c : Dev nD) : Buf (Elt Ideal) ((c : Thread nD τ).loc main_v2) :=
  fun _ => zero + ∑ s ∈ Finset.range 92, addend m c s

theorem idx2 : ∀ t : Fin cfg0.N, ∀ a : Fin 2, win0_2.index t a = 0 :=
  (by decide +kernel : ∀ t : Fin grid0.N, ∀ a : Fin 2, win0_2.index t a = 0)

theorem flushed_eq (c : Dev nD) (t : Fin cfg0.N) (hf : (cfg0.win 2).flush t = true) :
    (dats m 0 c).flushed 2 t = ((cfg0.win 2).blk t).view.read (Elt Ideal) (cell m c) := by
  have hN : cfg0.N = 92 := N_0
  have h91 : t.val = 91 := by have := (flush0_2 t).mp hf; have := t.isLt; omega
  show (cfg0.win 2).cut (grid0.coords t) ((dats m 0 c).after 2 t) = _
  rw [after0_2, outs_eq, h91]
  have hz' : (fun a => win0_2.index t a * main_v2.ty.shape.size a) = fun _ => 0 := funext fun a => by rw [idx2 t a, Nat.zero_mul]
  exact (Memref.read_access_unit_zero (Elt Ideal) main_v2 hz' (fun a => by rw [congrFun hz' a]; simp) (cell m c)).symm

theorem xsz2 : ∀ t : Fin cfg0.N, ∀ a : Fin 2, win0_2.xsize (grid0.coords t) a = 1 :=
  (by decide +kernel : ∀ t : Fin grid0.N, ∀ a : Fin 2, win0_2.xsize (grid0.coords t) a = 1)

/-- An index lies in point `t`'s block of the result array when, on each axis, it lies in the block's range. -/
theorem mem_cell_blk (t : Fin cfg0.N) (i : S1x1.Idx) :
    i ∈ ((cfg0.win 2).blk t).view.set
      ↔ ∀ a : Fin 2, win0_2.index t a * S1x1.size a ≤ (i a).val ∧ (i a).val < win0_2.index t a * S1x1.size a + S1x1.size a := by
  show i ∈ ((View.whole main_v2).slice (win0_2.rect t)).set ↔ _
  rw [View.set_slice_whole, Rect.mem_set_unit]
  exact Iff.rfl

/-- The last point's write-back covers the one-entry array, so it ends holding the cell. -/
theorem final_cell (c : Dev nD) : (dats m 0 c).arrAt 2 cfg0.N = cell m c :=
  (dats m 0 c).arrAt_eq_of_cover 2 (cell m c) (flushed_eq m c) fun i =>
    ⟨⟨91, lt92 (by decide)⟩, (flush0_2 _).mpr rfl, (mem_cell_blk _ i).mpr fun a => by
      have hi : (i a).val < 1 := by
        match a with
        | ⟨0, _⟩ => exact (i 0).isLt
        | ⟨1, _⟩ => exact (i 1).isLt
      rw [idx2 _ a, Nat.zero_mul, Nat.zero_add]
      have hs : S1x1.size a = 1 := by
        match a with
        | ⟨0, _⟩ => rfl
        | ⟨1, _⟩ => rfl
      exact ⟨Nat.zero_le _, lt_of_lt_of_eq hi hs.symm⟩⟩

/-! ## The host's last lines: the cell reshaped to rank zero and divided by the row count -/

theorem tail_result (c : Dev nD) :
    Pipeline.afterTail₀ cfgs (dats m) 0 (V0 m) [hostOps1] c main_v4
      = meanLoss (m ((c : Thread nD τ).loc main_arg0)) (m ((c : Thread nD τ).loc main_arg1)) := by
  unfold Pipeline.afterTail₀
  show StableHlo.after hostOps1 _ (Proc.devRef .tc main_v4) = _
  after_results
  have hX : Pipeline.withArrays (cfgs 0).spec c (V0 m c) (fun w => (dats m 0 c).arrAt w (cfgs 0).N) (Proc.devRef .tc main_v2)
      = cell m c :=
    (Pipeline.withArrays_arr spec0 launch0.win.arr_inj c _ _ 2).trans (final_cell m c)
  rw [hX]
  funext i
  show Ideal.div (zero + ∑ s ∈ Finset.range 92, addend m c s) nrows = Ideal.div (zero + total _ _) nrows
  rw [addends_total]

/-! ## The run, read -/

/-- Every weakly fair execution of the idealized kernel's program ends with the result at the mean loss of the argument
    arrays, and the arguments as launched. -/
theorem run : θ_run defs (onTc (τ := τ) (main (F := Ideal))) ⟨m, fun _ => 0, ρ⟩ fun r => ∀ c : Dev nD,
      r.2.mem ((c : Thread nD τ).loc main_v4) = meanLoss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.RefValue.lean ====
/-
  The reference program's result is the mean survival loss.

  The reference writes the clamps with their operands the other way round from the shared definition (max ε x, min c ·,
  max 1 d, min 32 ·), negates a logarithm where the definition subtracts it from zero, and starts each row's sum from the
  float zero.  Each of these is an identity of the extended reals or of signed 32-bit words, proved below as a fact about
  one number; a row of the reference is then read bin by bin, and the sum over the rank-one index set is re-indexed by
  the row number.
-/
import proofs.«114943_j89962384982548_1_alg».proof.Proof.Gen.ReferenceIdeal.Read
import proofs.«114943_j89962384982548_1_alg».proof.Proof.Hazard
import Idealize.ShloMosaic.PureOps.Ideal
import Idealize.ShloMosaic.PureOps.Ideal.Laws
import Idealize.ShloMosaic.Lib.ValueIdx
import Mathlib.Algebra.BigOperators.Group.Finset.Defs
import Mathlib.Algebra.Group.Defs
import Mathlib.Order.Defs.LinearOrder
import Mathlib.Data.EReal.Operations

noncomputable section

namespace Cert.ReferenceIdeal.RefValue

open Cert.ReferenceIdeal Cert.ReferenceIdeal.Read Cert.Hazard Idealize.ShloMosaic Idealize.ShloMosaic.ValueIdx

/-! ## Facts about one word -/

/-- The signed maximum of two words does not depend on their order. -/
theorem maxsi_comm (a b : BitVec 32) : IntOp.maxsi a b = IntOp.maxsi b a := by
  unfold IntOp.maxsi
  rw [BitVec.slt_eq_decide, BitVec.slt_eq_decide]
  by_cases h1 : b.toInt < a.toInt
  · have h2 : ¬ a.toInt < b.toInt := by omega
    rw [decide_eq_true h1, decide_eq_false h2, if_pos rfl, if_neg (by decide)]
  · by_cases h2 : a.toInt < b.toInt
    · rw [decide_eq_false h1, decide_eq_true h2, if_pos rfl, if_neg (by decide)]
    · have h : a = b := BitVec.eq_of_toInt_eq (by omega)
      rw [h]

/-- The signed minimum of two words does not depend on their order. -/
theorem minsi_comm (a b : BitVec 32) : IntOp.minsi a b = IntOp.minsi b a := by
  unfold IntOp.minsi
  rw [BitVec.slt_eq_decide, BitVec.slt_eq_decide]
  by_cases h1 : a.toInt < b.toInt
  · have h2 : ¬ b.toInt < a.toInt := by omega
    rw [decide_eq_true h1, decide_eq_false h2, if_pos rfl, if_neg (by decide)]
  · by_cases h2 : b.toInt < a.toInt
    · rw [decide_eq_false h1, decide_eq_true h2, if_pos rfl, if_neg (by decide)]
    · have h : a = b := BitVec.eq_of_toInt_eq (by omega)
      rw [h]

/-- The reference's clamp of a duration, min 32 (max 1 d), is the clamped duration. -/
theorem dur_ref (d : BitVec 32) : IntOp.minsi 32#32 (IntOp.maxsi 1#32 d) = dur d := by
  unfold dur
  rw [minsi_comm, maxsi_comm]

/-! ## Facts about one number -/

/-- The reference's clamp of a hazard, min c (max ε x), is the clamped hazard. -/
theorem haz_ref (x : EReal) : min cap (max eps x) = haz x := by
  unfold haz
  rw [min_comm, max_comm]

/-- The float zero is the number zero. -/
theorem zero_eq : zero = 0 := Ideal.ofBits_zero_f32

/-- The reference's censored term, −log (max ε (1 − h)). -/
theorem cens_ref (x : EReal) : -(Ideal.log (max eps (one - min cap (max eps x)))) = censTerm x := by
  unfold censTerm
  rw [haz_ref, zero_eq, zero_sub, max_comm]

/-- The reference's event term, −log h. -/
theorem evt_ref (x : EReal) : -(Ideal.log (min cap (max eps x))) = evtTerm x := by
  unfold evtTerm
  rw [haz_ref, zero_eq, zero_sub]

/-! ## The reference's arrays read at an index -/

variable (x0 : (⟨S1500000x32, .f32⟩ : BufTy).Contents (Elt Ideal)) (x1 : (⟨S1500000x2, .i32⟩ : BufTy).Contents (Elt Ideal))

/-- The duration column at row n. -/
theorem v1_at (n : Fin 1500000) : val_main_v1 (F := Ideal) x1 (ix1 n) = x1 (ix2 n (0 : Fin 2)) := by
  rw [val_main_v1_apply, val_main_v0_apply]
  exact congrArg x1 (funext fun a => Fin.ext (by match a with | ⟨0, _⟩ => exact Nat.div_one _ | ⟨1, _⟩ => rfl))

/-- The event column at row n. -/
theorem v4_at (n : Fin 1500000) : val_main_v4 (F := Ideal) x1 (ix1 n) = x1 (ix2 n (1 : Fin 2)) := by
  rw [val_main_v4_apply, val_main_v3_apply]
  exact congrArg x1 (funext fun a => Fin.ext (by match a with | ⟨0, _⟩ => exact Nat.div_one _ | ⟨1, _⟩ => rfl))

/-- The clamped duration at row n. -/
theorem v2_at (n : Fin 1500000) : val_main_v2 (F := Ideal) x1 (ix1 n) = dur (x1 (ix2 n (0 : Fin 2))) := by
  rw [val_main_v2_apply, val_main_call0_v4_apply, val_main_call0_v3_apply, val_main_c_0_apply,
    val_main_call0_v2_apply, val_main_call0_v1_apply, val_main_call0_v0_apply, val_main_c_apply, v1_at]
  exact dur_ref _

/-- The clamped hazard at an index. -/
theorem v5_at (i : S1500000x32.Idx) : val_main_v5 (F := Ideal) x0 i = min cap (max eps (x0 i)) := by
  rw [val_main_v5_apply, val_main_call1_v4_apply, val_main_call1_v3_apply, val_main_cst_1_apply,
    val_main_call1_v2_apply, val_main_call1_v1_apply, val_main_call1_v0_apply, val_main_cst_apply]
  rfl

/-- The censored term at an index. -/
theorem v12_at (i : S1500000x32.Idx) : val_main_v12 (F := Ideal) x0 i = censTerm (x0 i) := by
  rw [val_main_v12_apply, val_main_v11_apply, val_main_v10_apply, val_main_call2_v1_apply, val_main_call2_v0_apply,
    val_main_cst_3_apply, val_main_v9_apply, val_main_v8_apply, val_main_cst_2_apply, v5_at]
  exact cens_ref _

/-- The event term at an index. -/
theorem v20_at (i : S1500000x32.Idx) : val_main_v20 (F := Ideal) x0 i = evtTerm (x0 i) := by
  rw [val_main_v20_apply, val_main_v19_apply, v5_at]
  exact evt_ref _

/-- The bin number at an index. -/
theorem v14_at (n : Fin 1500000) (k : Fin 32) : val_main_v14 (F := Ideal) (ix2 n k) = BitVec.ofNat 32 k.val := by
  rw [val_main_v14_apply, val_main_v7_apply, val_main_v6_apply]

/-- The bin number at an index, the second copy. -/
theorem v24_at (n : Fin 1500000) (k : Fin 32) : val_main_v24 (F := Ideal) (ix2 n k) = BitVec.ofNat 32 k.val := by
  rw [val_main_v24_apply, val_main_v7_apply, val_main_v6_apply]

/-- The clamped duration spread over the bins. -/
theorem v15_at (n : Fin 1500000) (k : Fin 32) : val_main_v15 (F := Ideal) x1 (ix2 n k) = dur (x1 (ix2 n (0 : Fin 2))) := by
  rw [val_main_v15_apply, val_main_v13_apply, ← v2_at]
  exact congrArg (val_main_v2 (F := Ideal) x1) (funext fun a => by match a with | ⟨0, _⟩ => rfl)

/-- The clamped duration less one, spread over the bins. -/
theorem v25_at (n : Fin 1500000) (k : Fin 32) :
    val_main_v25 (F := Ideal) x1 (ix2 n k) = IntOp.subi (dur (x1 (ix2 n (0 : Fin 2)))) 1#32 := by
  rw [val_main_v25_apply, val_main_v23_apply, val_main_v22_apply, val_main_v21_apply, val_main_c_6_apply, ← v2_at]
  exact congrArg (fun j => IntOp.subi (val_main_v2 (F := Ideal) x1 j) 1#32) (funext fun a => by match a with | ⟨0, _⟩ => rfl)

/-- The censored summand of row n at bin k. -/
theorem v17_at (n : Fin 1500000) (k : Fin 32) :
    val_main_v17 (F := Ideal) x0 x1 (ix2 n k)
      = Scalar.select (IntOp.cmpi .slt (BitVec.ofNat 32 k.val) (dur (x1 (ix2 n (0 : Fin 2))))) (censTerm (x0 (ix2 n k))) zero := by
  rw [val_main_v17_apply, val_main_v16_apply, v14_at, v15_at, v12_at, val_main_call3_v1_apply, val_main_call3_v0_apply,
    val_main_cst_4_apply]
  rfl

/-- The event summand of row n at bin k. -/
theorem v27_at (n : Fin 1500000) (k : Fin 32) :
    val_main_v27 (F := Ideal) x0 x1 (ix2 n k)
      = Scalar.select (IntOp.cmpi .sge (BitVec.ofNat 32 k.val) (IntOp.subi (dur (x1 (ix2 n (0 : Fin 2)))) 1#32))
          (evtTerm (x0 (ix2 n k))) zero := by
  rw [val_main_v27_apply, val_main_v26_apply, v24_at, v25_at, v20_at, val_main_call4_v1_apply, val_main_call4_v0_apply,
    val_main_cst_7_apply]
  rfl

/-- The index the row sums read at is the pair (row, bin). -/
theorem idx18_eq (n : Fin 1500000) (k : Fin 32) : idx_main_v18 (ix1 n) k = ix2 n k :=
  funext fun a => by match a with | ⟨0, _⟩ => rfl | ⟨1, _⟩ => rfl

theorem idx28_eq (n : Fin 1500000) (k : Fin 32) : idx_main_v28 (ix1 n) k = ix2 n k :=
  funext fun a => by match a with | ⟨0, _⟩ => rfl | ⟨1, _⟩ => rfl

/-- The censored loss of row n. -/
theorem v18_at (n : Fin 1500000) :
    val_main_v18 (F := Ideal) x0 x1 (ix1 n) = censSum (rowOf x0 n) (x1 (ix2 n (0 : Fin 2))) := by
  rw [val_main_v18_apply, val_main_cst_5_apply]
  show Ideal.ofBits .f32 0x00000000#32 + _ = _
  rw [Ideal.ofBits_zero_f32, zero_add]
  unfold censSum
  exact Finset.sum_congr rfl fun k _ => by rw [idx18_eq, v17_at]

/-- The event loss of row n. -/
theorem v28_at (n : Fin 1500000) :
    val_main_v28 (F := Ideal) x0 x1 (ix1 n) = evtSum (rowOf x0 n) (x1 (ix2 n (0 : Fin 2))) := by
  rw [val_main_v28_apply, val_main_cst_8_apply]
  show Ideal.ofBits .f32 0x00000000#32 + _ = _
  rw [Ideal.ofBits_zero_f32, zero_add]
  unfold evtSum
  exact Finset.sum_congr rfl fun k _ => by rw [idx28_eq, v27_at]

/-- Row n of the reference is the row's loss. -/
theorem v31_at (n : Fin 1500000) :
    val_main_v31 (F := Ideal) x0 x1 (ix1 n)
      = rowLoss (rowOf x0 n) (x1 (ix2 n (0 : Fin 2))) (x1 (ix2 n (1 : Fin 2))) := by
  rw [val_main_v31_apply, val_main_v30_apply, v4_at, val_main_v29_apply, val_main_c_9_apply, v18_at, v28_at]
  rfl

/-! ## The whole sum -/

/-- The rank-one index set is its one coordinate's range. -/
def idxEquiv1 {n : Nat} : Fin n ≃ (⟨1, ![n]⟩ : Shape).Idx where
  toFun := ix1
  invFun j := j 0
  left_inv _ := rfl
  right_inv j := (eq_ix1 j).symm

/-- The reference's result is the mean loss. -/
theorem ref_value (x0 : (⟨Cert.ReferenceIdeal.S1500000x32, .f32⟩ : BufTy).Contents (Elt Ideal)) (x1 : (⟨Cert.ReferenceIdeal.S1500000x2, .i32⟩ : BufTy).Contents (Elt Ideal)) :
    Cert.ReferenceIdeal.Read.val_main_v33 (F := Ideal) x0 x1 = Cert.Hazard.meanLoss x0 x1 := by
  funext i
  rw [val_main_v33_apply, val_main_v32_apply, val_main_cst_10_apply, val_main_cst_11_apply]
  have hsum : ∑ j : S1500000.Idx, val_main_v31 (F := Ideal) x0 x1 j = total x0 x1 := by
    unfold total
    exact (Fintype.sum_equiv idxEquiv1 _ _ fun n => (v31_at x0 x1 n).symm).symm
  rw [hsum]
  rfl

end Cert.ReferenceIdeal.RefValue

end
-- ==== Proof.lean ====
/-
  The certificate: the Pallas survival-loss kernel against its jnp reference, over the extended reals.

  Both programs compute the mean over 1,500,000 rows of a per-row loss (`Cert.Hazard.meanLoss`): the clamped hazards'
  censored or event log-terms summed over the bins the clamped duration selects. The kernel pads the rows to a multiple
  of its 16,384-row tile, masks the padding rows off, sums tile by tile into one cell and divides at the end; the
  reference sums each row, then all rows, and divides. Over the extended reals addition is commutative and associative,
  max and min are commutative, and 0 − y = −y, so the two results are the same number; no finiteness of the inputs is
  used. The three frames are the generated ones (the reference's is its run with the result dropped); the ideal pass
  rewrote nothing, so `preserves` is `True`.
-/
import proofs.«114943_j89962384982548_1_alg».proof.Defs
import proofs.«114943_j89962384982548_1_alg».proof.Proof.Gen.Kernel
import proofs.«114943_j89962384982548_1_alg».proof.Proof.Gen.Kernel.Skeleton
import proofs.«114943_j89962384982548_1_alg».proof.Proof.Gen.Kernel.Launch
import proofs.«114943_j89962384982548_1_alg».proof.Proof.Gen.Kernel.Points
import proofs.«114943_j89962384982548_1_alg».proof.Proof.Gen.Kernel.Frame
import proofs.«114943_j89962384982548_1_alg».proof.Proof.Gen.KernelIdeal
import proofs.«114943_j89962384982548_1_alg».proof.Proof.Gen.KernelIdeal.Skeleton
import proofs.«114943_j89962384982548_1_alg».proof.Proof.Gen.KernelIdeal.Launch
import proofs.«114943_j89962384982548_1_alg».proof.Proof.Gen.KernelIdeal.Points
import proofs.«114943_j89962384982548_1_alg».proof.Proof.Gen.KernelIdeal.Frame
import proofs.«114943_j89962384982548_1_alg».proof.Proof.Gen.ReferenceIdeal
import proofs.«114943_j89962384982548_1_alg».proof.Proof.Gen.ReferenceIdeal.Run
import proofs.«114943_j89962384982548_1_alg».proof.Proof.Gen.ReferenceIdeal.Read
import proofs.«114943_j89962384982548_1_alg».proof.Proof.Gen.Pre_finite_inputs
import proofs.«114943_j89962384982548_1_alg».proof.Proof.KernelValue
import proofs.«114943_j89962384982548_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the mean loss of arguments that agree. -/
theorem algebraic : Cert.algebraic_KernelIdeal_ReferenceIdeal := by
  intro m ρ m' ρ' _ hagree
  refine ⟨fun c => Cert.Hazard.meanLoss (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.ref_value, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
